-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_c_2 : IVec S_ 32 := constantI S_ 32 4294963200#32
  let main_v9 : IVec S4096 32 := broadcastInDim S4096 ![] bcast_S_S4096 main_c_2
  let main_v10 : IVec S4096 1 := cmpi .sge main_arg2 main_v9
  let main_c_3 : IVec S_ 32 := constantI S_ 32 4096#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S64x4096 : Shape := ⟨2, ![64, 4096]⟩
abbrev S64 : Shape := ⟨1, ![64]⟩
abbrev S64x1 : Shape := ⟨2, ![64, 1]⟩

abbrev nBuf : Space → Nat
  | .hbm => 28
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x4096, .f32⟩
  | .hbm, ⟨22, _⟩ => ⟨S4096x4096, .i1⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S8192x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S64x4096, .f32⟩
  | .local _ .vmem, ⟨4, _⟩ => ⟨S64x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_1 : S4096.BroadcastsInDim S4096x4096 (![1] : Fin 1 → Fin S4096x4096.rank)
  bcast_S_S4096x4096 : S_.BroadcastsInDim S4096x4096 (![] : Fin 0 → Fin S4096x4096.rank)
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  reduces_S64x4096_S64 : S64x4096.Reduces [1] S64
  shapeCasts_S64_S64x1 : S64.ShapeCasts S64x1
  broadcasts_S64x1_S64x4096 : S64x1.Broadcasts S64x4096
  gather_S4096x4096_S4096x1_S4096x4096_0_1_n_n_1_1_40961_wf : GatherDims.WF S4096x4096 S4096x1 S4096x4096 [0] [1] [] [1] [] 1 ![4096, 1]
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S8192x4096.size a
  hwx0_2 : ∀ i : grid0.Coords, EltTy.bits .f32 = 32 ∨ (Rect.block (s := S8192x4096) S64x4096.size (cc0_transform_2 i) (hinb0_2 i)).WholeWords (EltTy.packing .f32)

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S8192x4096, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []
  gather_S8192x4096_S4096x1_S8192x4096_0_1_n_n_1_1_81921_wf : GatherDims.WF S8192x4096 S4096x1 S8192x4096 [0] [1] [] [1] [] 1 ![8192, 1]

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def gather_S8192x4096_S4096x1_S8192x4096_0_1_n_n_1_1_81921 : GatherDims S8192x4096 S4096x1 S8192x4096 where
  offsetDims := [0]
  collapsedSliceDims := [1]
  operandBatchingDims := []
  startIndicesBatchingDims := []
  startIndexMap := [1]
  indexVectorDim := 1
  sliceSizes := ![8192, 1]
  wf := gather_S8192x4096_S4096x1_S8192x4096_0_1_n_n_1_1_81921_wf

class Facts : Prop extends Facts₀ where

variable [Facts]
-- ==== Proof.PermRange.lean ====
/-
  What the precondition says of the permutation words.

  The precondition is the conjunction of three tests, each a conjunction over a whole array; its third says of every
  entry p of the index array that -4096 ≤ p and p < 4096 as signed words. A conjunction over an array that holds, holds
  of every entry.
-/
import proofs.«404038_j76364518523192_1_alg».proof.Pre_finite_inputs
import Idealize.ShloMosaic.Lib.ReduceAll
import Idealize.ShloMosaic.Lib.ValueIdx

namespace Cert.PermRange

open Idealize.ShloMosaic Idealize.ShloMosaic.ValueIdx Cert.Pre_finite_inputs

/-- A rank-0 array has one index. -/
instance : Subsingleton S_.Idx := ⟨fun _ _ => funext fun d => d.elim0⟩

variable [Facts]

/-- Every index word lies in [-4096, 4096), as the two signed comparisons the precondition makes. -/
theorem perm_range {F : FTy → Type} [FloatOps F] (w : FVec F S8192x4096 .f32) (R : FVec F S4096x4096 .f32)
    (perm : IVec S4096 32) (h : fn (F := F) w R perm = fun _ => 1#1) (j : Fin 4096) :
    IntOp.cmpi .sge (perm (ix1 j)) 4294963200#32 = 1#1 ∧ IntOp.cmpi .slt (perm (ix1 j)) 4096#32 = 1#1 := by
  have h0 := congrFun h ix0
  dsimp only [fn] at h0
  obtain ⟨_, h14⟩ := IntOp.andi_eq_one.1 h0
  have hj := Host.reduce_andi_all _ _ _ _ _ h14 (ix1 j)
  exact IntOp.andi_eq_one.1 hj

end Cert.PermRange
-- ==== Proof.LibMatmul.lean ====
/-
  Two facts every tiled matrix product here rests on, for any sizes.

  A plain product of an M × K by a K × N matrix accumulated into zeros, read at entry (a, b) at the ideal values, is
  Σ_c A(a, c) · B(c, b): the contraction index of the dimension numbers has one coordinate, which runs over the K
  columns of A and rows of B. And the offsets (0, 0) of a whole-buffer access are the zero offsets.
-/
import Idealize.ShloMosaic.Lib.ValueIdx
import Idealize.ShloMosaic.PureOps.Ideal.Laws

noncomputable section

namespace Cert.KernelIdeal.RegVal.Matmul

open Idealize.ShloMosaic Idealize.ShloMosaic.ValueIdx

/-- The offsets of an access to a whole rank-2 buffer are zero on both axes. -/
theorem zero_offsets : (![0, 0] : Fin 2 → Nat) = fun _ => 0 := funext fun a => by fin_cases a <;> rfl

/-- A plain product into a zero accumulator, read at an entry: the sum over the contracted coordinate of the products
    of the two operands' entries. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.KernelIdeal.RegVal.Matmul

end
-- ==== Proof.RowQuant.lean ====
/-
  Asymmetric 8-bit fake quantization of one row, on the extended reals.

  For a row a of n values: lo = min a (from +∞), hi = max a (from -∞), the step s = max((hi - lo) / 255, ε), the zero
  point z = -lo / s, and entry j becomes (clip(round(a j / s + z), 0, 255) - z) · s, round being round-half-to-even.
  Both programs compute exactly this of the same row; what differs is how each spells the two reductions, and those
  are brought here to one fold over the row's columns.
-/
import Idealize.ShloMosaic.PureOps.Ideal.Laws
import Idealize.ShloMosaic.Lib.ValueIdx

noncomputable section

namespace Cert.RowQuant

open Idealize.ShloMosaic Idealize.ShloMosaic.ValueIdx

/-- The least entry of a row, from +∞. -/
def rowMin {n : Nat} (a : Fin n → EReal) : EReal :=
  (Finset.univ : Finset (Fin n)).fold min (Ideal.ofBits .f32 0x7F800000#32) a

/-- The greatest entry of a row, from -∞. -/
def rowMax {n : Nat} (a : Fin n → EReal) : EReal :=
  (Finset.univ : Finset (Fin n)).fold max (Ideal.ofBits .f32 0xFF800000#32) a

/-- The quantization of a value x in a row whose least entry is lo and greatest hi: with the step
    s = max((hi - lo) / 255, ε) and the zero point z = -lo / s, it is (clip(round(x / s + z), 0, 255) - z) · s. -/
def quantOf (x lo hi : EReal) : EReal :=
  (min (Ideal.ofBits .f32 0x437F0000#32)
      (max (Ideal.ofBits .f32 0x00000000#32)
        (Ideal.liftRound Ideal.roundHalfEven
          (Ideal.div x (max (Ideal.div (hi - lo) (Ideal.ofBits .f32 0x437F0000#32)) (Ideal.ofBits .f32 0x322BCC77#32))
            + Ideal.div (-lo) (max (Ideal.div (hi - lo) (Ideal.ofBits .f32 0x437F0000#32)) (Ideal.ofBits .f32 0x322BCC77#32)))))
    - Ideal.div (-lo) (max (Ideal.div (hi - lo) (Ideal.ofBits .f32 0x437F0000#32)) (Ideal.ofBits .f32 0x322BCC77#32)))
  * max (Ideal.div (hi - lo) (Ideal.ofBits .f32 0x437F0000#32)) (Ideal.ofBits .f32 0x322BCC77#32)

/-- Entry j of the row, quantized to [0, 255] with the row's own range and mapped back. -/
def quant {n : Nat} (a : Fin n → EReal) (j : Fin n) : EReal :=
  quantOf (a j) (rowMin a) (rowMax a)

/-- Zero minus a value is its negative, also when the value is infinite. -/
theorem zero_subf (lo : EReal) :
    FloatOps.subf (F := Ideal) (φ := .f32) (FloatOps.ofBits .f32 0x00000000#32) lo = -lo := by
  show Ideal.ofBits .f32 0x00000000#32 - lo = -lo
  rw [Ideal.ofBits_zero_f32, zero_sub]

/-- A lane minimum over ONE axis at the ideal values: the fold of min from the accumulator's value over that axis's
    coordinates (the companion of the library's statement for the maximum). -/
theorem multiReduction_minimumf_single {s t : Shape} {ax : Fin s.rank} {φ : FTy} (src : FVec Ideal s φ)
    (acc : BitVec φ.bits) (h : s.Reduces [ax] t) (hφ : FKind.Formats φ) (hacc : acc = FKind.minimumf.neutral φ hφ)
    (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The source index over row r of an R × n array with column k inserted is (r, k). -/
theorem lift_row {R n : Nat} (h : Shape.Reduces ⟨2, ![R, n]⟩ [1] ⟨1, ![R]⟩) (r : Fin R) (k : Fin n) :
    h.lift (ix1 r) k = ix2 r k :=
  funext fun c => Fin.ext (by
    match c with
    | ⟨0, _⟩ => rfl
    | ⟨1, _⟩ => rfl)

/-- The kernel's row minimum of an R × n array at row r. -/
theorem kernel_rowMin {R n : Nat} (v : FVec Ideal ⟨2, ![R, n]⟩ .f32) (h : Shape.Reduces ⟨2, ![R, n]⟩ [1] ⟨1, ![R]⟩)
    (hφ : FKind.Formats .f32) (hacc : (0x7F800000#32 : BitVec 32) = FKind.minimumf.neutral .f32 hφ) (r : Fin R) :
    multiReduction .minimumf [1] ⟨1, ![R]⟩ v 0x7F800000#32 h hφ hacc (ix1 r) = rowMin fun k => v (ix2 r k) := by
  rw [multiReduction_minimumf_single]
  exact congrArg (Finset.fold min _ · Finset.univ) (funext fun k => congrArg v (lift_row h r k))

/-- The kernel's row maximum of an R × n array at row r. -/
theorem kernel_rowMax {R n : Nat} (v : FVec Ideal ⟨2, ![R, n]⟩ .f32) (h : Shape.Reduces ⟨2, ![R, n]⟩ [1] ⟨1, ![R]⟩)
    (hφ : FKind.Formats .f32) (hacc : (0xFF800000#32 : BitVec 32) = FKind.maximumf.neutral .f32 hφ) (r : Fin R) :
    multiReduction .maximumf [1] ⟨1, ![R]⟩ v 0xFF800000#32 h hφ hacc (ix1 r) = rowMax fun k => v (ix2 r k) := by
  rw [Ideal.multiReduction_maximumf_single]
  exact congrArg (Finset.fold max _ · Finset.univ) (funext fun k => congrArg v (lift_row h r k))

/-- The host's row minimum of an R × n array at row r, from a scalar initial value. -/
theorem host_rowMin {R n : Nat} (x : (⟨2, ![R, n]⟩ : Shape).Idx → EReal)
    (h' : Shape.ReducesTo ⟨2, ![R, n]⟩ [1] ⟨1, ![R]⟩) (h : Shape.Reduces ⟨2, ![R, n]⟩ [1] ⟨1, ![R]⟩)
    (hu : 0 < (⟨0, ![]⟩ : Shape).numel) (r : Fin R) :
    Host.reduce (FloatOps.minimumf (F := Ideal) (φ := .f32)) x (constant (F := Ideal) ⟨0, ![]⟩ .f32 0x7F800000#32) h' hu (ix1 r)
      = rowMin fun k => x (ix2 r k) := by
  rw [Host.reduce_eq_fold_single _ x _ h' h hu]
  exact congrArg (Finset.fold min _ · Finset.univ) (funext fun k => congrArg x (lift_row h r k))

/-- The host's row maximum of an R × n array at row r, from a scalar initial value. -/
theorem host_rowMax {R n : Nat} (x : (⟨2, ![R, n]⟩ : Shape).Idx → EReal)
    (h' : Shape.ReducesTo ⟨2, ![R, n]⟩ [1] ⟨1, ![R]⟩) (h : Shape.Reduces ⟨2, ![R, n]⟩ [1] ⟨1, ![R]⟩)
    (hu : 0 < (⟨0, ![]⟩ : Shape).numel) (r : Fin R) :
    Host.reduce (FloatOps.maximumf (F := Ideal) (φ := .f32)) x (constant (F := Ideal) ⟨0, ![]⟩ .f32 0xFF800000#32) h' hu (ix1 r)
      = rowMax fun k => x (ix2 r k) := by
  rw [Host.reduce_eq_fold_single _ x _ h' h hu]
  exact congrArg (Finset.fold max _ · Finset.univ) (funext fun k => congrArg x (lift_row h r k))

end Cert.RowQuant

end
-- ==== Proof.ColumnGather.lean ====
/-
  A gather of whole columns, read at an index.

  For an M × N operand x and C start indices, the gather with one offset axis (the rows), the column axis collapsed,
  and slices of M × 1 picks, for result column b, the operand column named by start index b: result entry (a, b) is
  x(a, clamp(idx b)) where the start index is read as a signed integer and clamped into [0, N − 1], the only start for
  which a slice of width one fits.
-/
import Idealize.ShloMosaic.Lib.ValueIdx
import Idealize.ShloMosaic.PureOps.ShapeOps

namespace Cert.ColumnGather

open Idealize.ShloMosaic Idealize.ShloMosaic.ValueIdx

variable {α : Type}

/-- The dimension numbers of a column gather from an M × N operand at C start indices (held as a C × 1 array). -/
abbrev colDims (M N C : Nat)
    (wf : GatherDims.WF ⟨2, ![M, N]⟩ ⟨2, ![C, 1]⟩ ⟨2, ![M, C]⟩ [0] [1] [] [1] [] 1 ![M, 1]) :
    GatherDims ⟨2, ![M, N]⟩ ⟨2, ![C, 1]⟩ ⟨2, ![M, C]⟩ where
  offsetDims := [0]
  collapsedSliceDims := [1]
  operandBatchingDims := []
  startIndicesBatchingDims := []
  startIndexMap := [1]
  indexVectorDim := 1
  sliceSizes := ![M, 1]
  wf := wf

/-- The column a start word names: its signed value clamped into [0, N − 1]. -/
def colOf (N : Nat) (hN : 0 < N) {w : Nat} (q : BitVec w) : Fin N := ⟨min q.toInt.toNat (N - 1), by omega⟩

section Coordinates
variable {M N C w : Nat}
  (wf : GatherDims.WF ⟨2, ![M, N]⟩ ⟨2, ![C, 1]⟩ ⟨2, ![M, C]⟩ [0] [1] [] [1] [] 1 ![M, 1])
  (idx : IVec ⟨2, ![C, 1]⟩ w) (a : Fin M) (b : Fin C)

/-- On the row axis the operand index is the result's row: no start index names that axis, and it is the offset axis. -/
theorem operandIdx_row : ((colDims M N C wf).operandIdx (ix2 a b) idx (0 : Fin 2)).val = a.val := by
  show (colDims M N C wf).start (ix2 a b) idx (0 : Fin 2) + (colDims M N C wf).batchCoord (ix2 a b) (0 : Fin 2)
    + (colDims M N C wf).offCoord (ix2 a b) (0 : Fin 2) = _
  rw [GatherDims.batchCoord_eq_zero _ _ _ List.not_mem_nil]
  have hs : (colDims M N C wf).start (ix2 a b) idx (0 : Fin 2) = 0 := by
    unfold GatherDims.start
    rw [dif_neg (fun h => absurd (List.mem_singleton.mp h) (show ¬ ((0 : Fin 2) = 1) by decide))]
  have ho : (colDims M N C wf).offCoord (ix2 a b) (0 : Fin 2) = a.val := by
    unfold GatherDims.offCoord
    rw [dif_pos ((GatherDims.mem_sKept _ _).mpr
      ⟨fun h => absurd (List.mem_singleton.mp h) (show ¬ ((0 : Fin 2) = 1) by decide), List.not_mem_nil⟩)]
    rfl
  rw [hs, ho]; omega

/-- On the column axis the operand index is the clamped start index of the result's column: the axis is collapsed. -/
theorem operandIdx_col :
    ((colDims M N C wf).operandIdx (ix2 a b) idx (1 : Fin 2)).val
      = min (idx (ix2 b ⟨0, Nat.one_pos⟩)).toInt.toNat (N - 1) := by
  show (colDims M N C wf).start (ix2 a b) idx (1 : Fin 2) + (colDims M N C wf).batchCoord (ix2 a b) (1 : Fin 2)
    + (colDims M N C wf).offCoord (ix2 a b) (1 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims M N C wf).startIndexMap from List.mem_singleton.mpr rfl)]
  have hsi : (colDims M N C wf).siIdx (ix2 a b) ⟨List.idxOf (1 : Fin 2) (colDims M N C wf).startIndexMap,
      List.idxOf_lt_length_iff.2 (List.mem_singleton.mpr rfl)⟩ = ix2 b ⟨0, Nat.one_pos⟩ := by
    funext c; refine Fin.ext ?_
    match c with
    | ⟨0, _⟩ => rfl
    | ⟨1, _⟩ => rfl
  rw [hsi]
  rfl

end Coordinates

/-- THE COLUMN GATHER READ AT (a, b): the operand at row a and the column start word b names. -/
theorem gather_cols_apply {M N C w : Nat} (hN : 0 < N)
    (wf : GatherDims.WF ⟨2, ![M, N]⟩ ⟨2, ![C, 1]⟩ ⟨2, ![M, C]⟩ [0] [1] [] [1] [] 1 ![M, 1])
    (x : (⟨2, ![M, N]⟩ : Shape).Idx → α) (idx : IVec ⟨2, ![C, 1]⟩ w) (a : Fin M) (b : Fin C) :
    Host.gather (colDims M N C wf) x idx (ix2 a b) = x (ix2 a (colOf N hN (idx (ix2 b ⟨0, Nat.one_pos⟩)))) := by
  unfold Host.gather
  congr 1
  funext ax
  refine Fin.ext ?_
  match ax with
  | ⟨0, _⟩ => exact operandIdx_row wf idx a b
  | ⟨1, _⟩ => exact operandIdx_col wf idx a b

end Cert.ColumnGather
-- ==== Proof.WrappedIndex.lean ====
/-
  The column index a NumPy-style take reads, as a 32-bit word.

  A negative index p counts from the end: it is replaced by p + n (here n = 4096). For a word p with
  -4096 ≤ p < 4096 (signed) the replaced word lies in [0, 4095]: a non-negative p is kept and is below 4096; a negative
  p is at least -4096, so p + 4096 does not wrap and lies in [0, 4095].
-/
import Idealize.ShloMosaic.PureOps.Float

namespace Cert.WrappedIndex

open Idealize.ShloMosaic

/-- The index word after the wrap of a negative index by the extent 4096. -/
def wrapWord (p : BitVec 32) : BitVec 32 :=
  Scalar.select (IntOp.cmpi .slt p 0#32) (IntOp.addi p 4096#32) p

theorem cmpi_slt (x y : BitVec 32) : IntOp.cmpi .slt x y = BitVec.ofBool (x.slt y) := rfl
theorem cmpi_sge (x y : BitVec 32) : IntOp.cmpi .sge x y = BitVec.ofBool (y.sle x) := rfl
theorem cmpi_sle (x y : BitVec 32) : IntOp.cmpi .sle x y = BitVec.ofBool (x.sle y) := rfl

/-- A 32-bit word's signed value from its unsigned one, by the sign bit. -/
theorem toInt_cases (x : BitVec 32) :
    (x.toNat < 2147483648 ∧ x.toInt = (x.toNat : Int)) ∨
      (2147483648 ≤ x.toNat ∧ x.toInt = (x.toNat : Int) - 4294967296) := by
  rw [BitVec.toInt_eq_toNat_cond]
  have := x.isLt
  split <;> omega

theorem ofBool_eq_one {b : Bool} : BitVec.ofBool b = 1#1 ↔ b = true := by cases b <;> decide

/-- The signed value of the wrapped word, for -4096 ≤ p < 4096, lies in [0, 4095]. -/
theorem wrapWord_toInt (p : BitVec 32) (hlo : -4096 ≤ p.toInt) (hhi : p.toInt < 4096) :
    0 ≤ (wrapWord p).toInt ∧ (wrapWord p).toInt ≤ 4095 := by
  by_cases hneg : p.slt 0#32 = true
  · have hn : p.toInt < 0 := by simpa [BitVec.slt] using hneg
    have hw : wrapWord p = p + 4096#32 := by
      simp [wrapWord, Scalar.select, cmpi_slt, hneg, IntOp.addi]
    rw [hw]
    have hp := p.isLt
    have hadd : (p + 4096#32).toNat = (p.toNat + 4096) % 4294967296 := by
      rw [BitVec.toNat_add]; rfl
    rcases toInt_cases p with ⟨h1, h2⟩ | ⟨h1, h2⟩
    · omega
    · rcases toInt_cases (p + 4096#32) with ⟨k1, k2⟩ | ⟨k1, k2⟩
      · rw [k2, hadd]; omega
      · rw [hadd] at k1; omega
  · have hneg' : p.slt 0#32 = false := by simpa using hneg
    have hn : ¬ p.toInt < 0 := by
      intro h; apply hneg; simpa [BitVec.slt] using h
    have hw : wrapWord p = p := by
      simp [wrapWord, Scalar.select, cmpi_slt, hneg']
    rw [hw]; omega

/-- Under -4096 ≤ p < 4096 the wrapped word is in [0, 4095]: the two range tests of the take both hold. -/
theorem wrapWord_inb (p : BitVec 32)
    (hlo : IntOp.cmpi .sge p 4294963200#32 = 1#1) (hhi : IntOp.cmpi .slt p 4096#32 = 1#1) :
    IntOp.andi (IntOp.cmpi .sge (wrapWord p) 0#32) (IntOp.cmpi .sle (wrapWord p) 4095#32) = 1#1 := by
  rw [cmpi_sge] at hlo; rw [cmpi_slt] at hhi
  have hlo' : (4294963200#32 : BitVec 32).toInt ≤ p.toInt := by
    have := ofBool_eq_one.1 hlo; simpa [BitVec.sle] using this
  have hhi' : p.toInt < (4096#32 : BitVec 32).toInt := by
    have := ofBool_eq_one.1 hhi; simpa [BitVec.slt] using this
  have e1 : (4294963200#32 : BitVec 32).toInt = -4096 := by decide
  have e2 : (4096#32 : BitVec 32).toInt = 4096 := by decide
  rw [e1] at hlo'; rw [e2] at hhi'
  have key := wrapWord_toInt p hlo' hhi'
  have z : (0#32 : BitVec 32).toInt = 0 := by decide
  have m : (4095#32 : BitVec 32).toInt = 4095 := by decide
  have a : (0#32 : BitVec 32).sle (wrapWord p) = true := by
    simp only [BitVec.sle, z, decide_eq_true_eq]; exact key.1
  have b : (wrapWord p).sle 4095#32 = true := by
    simp only [BitVec.sle, m, decide_eq_true_eq]; exact key.2
  rw [cmpi_sge, cmpi_sle, a, b]; decide

end Cert.WrappedIndex
-- ==== Proof.Spec.lean ====
/-
  The function both programs compute.

  For weight W (8192 × 4096), rotation R (4096 × 4096) and an index array perm (4096 words): result column j takes
  column c(j) of the product W · R, where c(j) is perm(j) with a negative value replaced by perm(j) + 4096 and the
  result clamped into [0, 4095]; then every row is quantized with its own minimum and maximum (Cert.RowQuant).
  Taking columns of the product and taking the same columns of R before the product give the same sums:
  (W · R)(i, c(j)) = Σ_k W(i, k) · R(k, c(j)) either way, with no law of arithmetic involved.
-/
import proofs.«404038_j76364518523192_1_alg».proof.Proof.ColumnGather
import proofs.«404038_j76364518523192_1_alg».proof.Proof.WrappedIndex
import proofs.«404038_j76364518523192_1_alg».proof.Proof.RowQuant

noncomputable section

namespace Cert.Spec

open Idealize.ShloMosaic Idealize.ShloMosaic.ValueIdx Cert.ColumnGather Cert.WrappedIndex Cert.RowQuant

/-- The column of R (or of W · R) that result column j reads. -/
def srcCol (perm : IVec ⟨1, ![4096]⟩ 32) (j : Fin 4096) : Fin 4096 :=
  colOf 4096 (by decide) (wrapWord (perm (ix1 j)))

/-- Row r of the product of a row block x by a matrix y. -/
def prodRow {M K N : Nat} (x : (⟨2, ![M, K]⟩ : Shape).Idx → EReal) (y : (⟨2, ![K, N]⟩ : Shape).Idx → EReal) (r : Fin M) :
    Fin N → EReal :=
  fun j => ∑ k : Fin K, x (ix2 r k) * y (ix2 k j)

/-- Row i of the product W · R with its columns taken at perm. -/
def takenRow (W : (⟨2, ![8192, 4096]⟩ : Shape).Idx → EReal) (R : (⟨2, ![4096, 4096]⟩ : Shape).Idx → EReal)
    (perm : IVec ⟨1, ![4096]⟩ 32) (i : Fin 8192) : Fin 4096 → EReal :=
  fun j => ∑ k : Fin 4096, W (ix2 i k) * R (ix2 k (srcCol perm j))

/-- THE RESULT: entry (i, j) is the quantization of row i of the taken product at column j. -/
def G (W : (⟨2, ![8192, 4096]⟩ : Shape).Idx → EReal) (R : (⟨2, ![4096, 4096]⟩ : Shape).Idx → EReal)
    (perm : IVec ⟨1, ![4096]⟩ 32) : (⟨2, ![8192, 4096]⟩ : Shape).Idx → EReal :=
  fun i => quant (takenRow W R perm (i 0)) (i 1)

theorem G_apply (W : (⟨2, ![8192, 4096]⟩ : Shape).Idx → EReal) (R : (⟨2, ![4096, 4096]⟩ : Shape).Idx → EReal)
    (perm : IVec ⟨1, ![4096]⟩ 32) (i : Fin 8192) (j : Fin 4096) :
    G W R perm (ix2 i j) = quant (takenRow W R perm i) j := rfl

end Cert.Spec

end
-- ==== Proof.KernelRow.lean ====
/-
  What the kernel body stores for one row of its block.

  The body multiplies its 64 × 4096 row block by the whole 4096 × 4096 right-hand matrix (a product into zeros: entry
  (r, j) is Σ_k x(r, k) · y(k, j); the narrowing of x to bf16 changes nothing on the extended reals), then quantizes
  each row of the product with that row's own minimum and maximum. So entry (r, j) of what it stores is the
  quantization of product row r at column j.
-/
import proofs.«404038_j76364518523192_1_alg».proof.Proof.Gen.KernelIdeal.Skeleton
import proofs.«404038_j76364518523192_1_alg».proof.Proof.LibMatmul
import proofs.«404038_j76364518523192_1_alg».proof.Proof.RowQuant
import proofs.«404038_j76364518523192_1_alg».proof.Proof.Spec
import Idealize.ShloMosaic.Lib.Pipeline.Value

noncomputable section

namespace Cert.KernelIdeal.RowValue

open Cert.KernelIdeal Cert.KernelIdeal.Gen Idealize.ShloMosaic Idealize.ShloMosaic.ValueIdx Cert.RowQuant Cert.Spec

/-- The body's product at entry (r, j). -/
theorem acc_apply (x0 : Vec Ideal S64x4096 .f32) (x1 : Vec Ideal S4096x4096 .bf16) (r : Fin 64) (j : Fin 4096) :
    matmul (F := Ideal) (φ₁ := .bf16) (φ₂ := .bf16) dot_S64x4096_S4096x4096_S64x4096_1_0_0_1_n_n none
        (truncf .bf16 x0 bitsLt_bf16_f32)
        (shapeCast S4096x4096 (x1 : FVec Ideal S4096x4096 .bf16) shapeCasts_S4096x4096_S4096x4096)
        (constant S64x4096 .f32 0x00000000#32) (ix2 r j)
      = prodRow x0 x1 r j := by
  rw [shapeCast_self]
  exact Cert.KernelIdeal.RegVal.Matmul.matmul_plain_zero_apply none x0 x1 r j

/-- A column [64] re-laid as [64, 1], read at (r, 0). -/
theorem cast_col_apply {α : Type} (v : S64.Idx → α) (h : S64.ShapeCasts S64x1) (r : Fin 64) (z : Fin 1) :
    shapeCast S64x1 v h (ix2 r z) = v (ix1 r) :=
  shapeCast_apply v h (ix2 r z) (ix1 r) (by
    rw [Shape.rowMajor_val_one, Shape.rowMajor_val_two]
    have := z.isLt
    show r.val = r.val * 1 + z.val
    omega)

/-- A column [64, 1] spread over 4096 columns, read at (r, j). -/
theorem bcast_col_apply {α : Type} (v : S64x1.Idx → α) (h : S64x1.Broadcasts S64x4096) (r : Fin 64) (j : Fin 4096) :
    broadcastTo S64x4096 v h (ix2 r j) = v (ix2 r ⟨0, Nat.one_pos⟩) :=
  broadcastTo_apply v h (ix2 r j) (ix2 r ⟨0, Nat.one_pos⟩) (fun a => by
    match a with
    | ⟨0, _⟩ => show r.val = if (64 : Nat) = 1 then 0 else r.val; rw [if_neg (by decide)]
    | ⟨1, _⟩ => show 0 = if (1 : Nat) = 1 then 0 else j.val; rw [if_pos rfl])

/-- The body's product, as an array. -/
abbrev acc (x0 : Vec Ideal S64x4096 .f32) (x1 : Vec Ideal S4096x4096 .bf16) : FVec Ideal S64x4096 .f32 :=
  matmul (F := Ideal) (φ₁ := .bf16) (φ₂ := .bf16) dot_S64x4096_S4096x4096_S64x4096_1_0_0_1_n_n none
    (truncf .bf16 x0 bitsLt_bf16_f32)
    (shapeCast S4096x4096 (x1 : FVec Ideal S4096x4096 .bf16) shapeCasts_S4096x4096_S4096x4096)
    (constant S64x4096 .f32 0x00000000#32)

/-- The body's store at (r, j) is the quantization of the product's entry there between the body's own row minimum
    and row maximum: the column reductions re-laid as [64, 1] and spread back over the columns are read at row r,
    and zero minus the minimum is its negative. -/
theorem pay_form (x0 : Vec Ideal S64x4096 .f32) (x1 : Vec Ideal S4096x4096 .bf16) (r : Fin 64) (j : Fin 4096) :
    k0_pay1 (F := Ideal) x0 x1 (ix2 r j)
      = quantOf (acc x0 x1 (ix2 r j))
          (multiReduction .minimumf [1] S64 (acc x0 x1) 0x7F800000#32 reduces_S64x4096_S64 (.inl rfl) rfl (ix1 r))
          (multiReduction .maximumf [1] S64 (acc x0 x1) 0xFF800000#32 reduces_S64x4096_S64 (.inl rfl) rfl (ix1 r)) := by
  unfold k0_pay1
  simp only [mulf, subf, addf, divf, maximumf, minimumf, roundeven, broadcast, bcast_col_apply, cast_col_apply]
  rw [zero_subf]
  rfl

/-- THE BODY'S STORE AT (r, j): the quantization of product row r at column j. -/
theorem pay_apply (x0 : Vec Ideal S64x4096 .f32) (x1 : Vec Ideal S4096x4096 .bf16) (r : Fin 64) (j : Fin 4096) :
    k0_pay1 (F := Ideal) x0 x1 (ix2 r j) = quant (prodRow x0 x1 r) j := by
  have hA : ∀ j', acc x0 x1 (ix2 r j') = prodRow x0 x1 r j' := acc_apply x0 x1 r
  have hlo := (kernel_rowMin (acc x0 x1) reduces_S64x4096_S64 (.inl rfl) rfl r).trans
    (congrArg rowMin (funext hA))
  have hhi := (kernel_rowMax (acc x0 x1) reduces_S64x4096_S64 (.inl rfl) rfl r).trans
    (congrArg rowMax (funext hA))
  rw [pay_form, hA j]
  exact congr (congrArg (quantOf (prodRow x0 x1 r j)) hlo) hhi

end Cert.KernelIdeal.RowValue

end
-- ==== Proof.PermutedMatrix.lean ====
/-
  The right-hand matrix the kernel is launched with.

  Before the launch the host takes columns of R: column j of the result is column perm(j) of R, a negative perm(j)
  first replaced by perm(j) + 4096; where the replaced index is outside [0, 4095] the take fills the column with a
  not-a-number instead. Under the precondition every index is in range (Cert.WrappedIndex), so no column is filled, and
  entry (k, j) of what the launch stages is R(k, c(j)), c(j) the column the replaced index names. The narrowing to bf16
  that follows is the identity on the extended reals.
-/
import proofs.«404038_j76364518523192_1_alg».proof.Proof.Gen.KernelIdeal.Frame
import proofs.«404038_j76364518523192_1_alg».proof.Proof.ColumnGather
import proofs.«404038_j76364518523192_1_alg».proof.Proof.WrappedIndex
import proofs.«404038_j76364518523192_1_alg».proof.Proof.RowQuant
import proofs.«404038_j76364518523192_1_alg».proof.Proof.Spec
import Idealize.ShloMosaic.Lib.StableHlo.Run
import Idealize.ShloMosaic.Lib.Pipeline.Value
import Idealize.ShloMosaic.PureOps.Ideal.Laws

noncomputable section

namespace Cert.KernelIdeal.Permuted

open Cert.KernelIdeal Cert.KernelIdeal.Gen Idealize.ShloMosaic Idealize.ShloMosaic.TcCoe Idealize.SL.Sem
open Idealize.ShloMosaic.ValueIdx Cert.ColumnGather Cert.WrappedIndex Cert.Spec

/-! ## The take, as one function of R and perm -/

/-- The index array with negative entries replaced. -/
def wrapped (perm : IVec S4096 32) : IVec S4096 32 :=
  select (cmpi .slt perm (broadcastInDim S4096 ![] bcast_S_S4096 (constantI S_ 32 0#32)))
    (addi perm (broadcastInDim S4096 ![] bcast_S_S4096 (constantI S_ 32 4096#32))) perm

/-- The same, as the 4096 × 1 array of start indices the gather reads. -/
def startIdx (perm : IVec S4096 32) : IVec S4096x1 32 :=
  broadcastInDim S4096x1 ![0] bcast_S4096_S4096x1_0 (wrapped perm)

/-- Per column: is its replaced index inside [0, 4095]? -/
def inRange (perm : IVec S4096 32) : IVec S4096 1 :=
  Host.reduce IntOp.andi
    (andi (cmpi .sge (startIdx perm) (broadcastInDim S4096x1 ![] bcast_S_S4096x1 (constantI S_ 32 0#32)))
      (cmpi .sle (startIdx perm)
        (broadcastInDim S4096x1 ![0, 1] bcast_S1x1_S4096x1_0_1
          (broadcastInDim S1x1 ![1] bcast_S1_S1x1_1 (constantI S1 32 4095#32)))))
    (constantI S_ 1 1#1) reducesTo_S4096x1_S4096_d1 h_S_

/-- The take of R's columns at perm, a column whose index is out of range filled with the not-a-number pattern. -/
def takeCols {F : FTy → Type} [FloatOps F] (R : FVec F S4096x4096 .f32) (perm : IVec S4096 32) :
    FVec F S4096x4096 .f32 :=
  select (broadcastInDim S4096x4096 ![1] bcast_S4096_S4096x4096_1 (inRange perm))
    (Host.gather gather_S4096x4096_S4096x1_S4096x4096_0_1_n_n_1_1_40961 R (startIdx perm))
    (broadcastInDim S4096x4096 ![] bcast_S_S4096x4096 (constant S_ .f32 0x7FC00000#32))

/-! ## Read at an index -/

theorem wrapped_apply (perm : IVec S4096 32) (j : Fin 4096) : wrapped perm (ix1 j) = wrapWord (perm (ix1 j)) := rfl

theorem startIdx_apply (perm : IVec S4096 32) (j : Fin 4096) (z : Fin 1) :
    startIdx perm (ix2 j z) = wrapWord (perm (ix1 j)) := by
  unfold startIdx
  rw [broadcastInDim_apply _ bcast_S4096_S4096x1_0 (wrapped perm) (ix2 j z) (ix1 j) (fun a => match a with
    | ⟨0, _⟩ => by show j.val = if (4096 : Nat) = 1 then 0 else j.val; rw [if_neg (by decide)])]
  exact wrapped_apply perm j

/-- A conjunction of ones is one. -/
theorem fold_andi_one {ι : Type} [DecidableEq ι] (s : Finset ι) (f : ι → BitVec 1) (b : BitVec 1) (hb : b = 1#1)
    (h : ∀ k ∈ s, f k = 1#1) : s.fold IntOp.andi b f = 1#1 := by
  subst hb
  induction s using Finset.induction_on with
  | empty => rfl
  | insert a s ha ih =>
    rw [Finset.fold_insert ha, h a (Finset.mem_insert_self _ _), ih fun k hk => h k (Finset.mem_insert_of_mem hk)]
    decide

/-- Every column is in range when every index word lies in [-4096, 4096). -/
theorem inRange_apply (perm : IVec S4096 32)
    (hperm : ∀ j : Fin 4096, IntOp.cmpi .sge (perm (ix1 j)) 4294963200#32 = 1#1 ∧ IntOp.cmpi .slt (perm (ix1 j)) 4096#32 = 1#1)
    (j : Fin 4096) : inRange perm (ix1 j) = 1#1 := by
  unfold inRange
  rw [Host.reduce_eq_fold_single IntOp.andi _ _ reducesTo_S4096x1_S4096_d1 (by decide : S4096x1.Reduces [1] S4096) h_S_ (ix1 j)]
  refine fold_andi_one _ _ _ rfl fun k _ => ?_
  show IntOp.andi (IntOp.cmpi .sge (startIdx perm (Shape.Reduces.lift _ (ix1 j) k)) 0#32)
    (IntOp.cmpi .sle (startIdx perm (Shape.Reduces.lift _ (ix1 j) k)) 4095#32) = 1#1
  rw [Cert.RowQuant.lift_row (R := 4096) (n := 1) _ j k]
  have hs : startIdx perm (ix2 j k) = wrapWord (perm (ix1 j)) := startIdx_apply perm j k
  rw [hs]
  exact wrapWord_inb _ (hperm j).1 (hperm j).2

/-- THE TAKE AT (k, j), indices in range: R at row k and the column the replaced index names. -/
theorem takeCols_apply (R : FVec Ideal S4096x4096 .f32) (perm : IVec S4096 32)
    (hperm : ∀ j : Fin 4096, IntOp.cmpi .sge (perm (ix1 j)) 4294963200#32 = 1#1 ∧ IntOp.cmpi .slt (perm (ix1 j)) 4096#32 = 1#1)
    (k j : Fin 4096) : takeCols (F := Ideal) R perm (ix2 k j) = R (ix2 k (srcCol perm j)) := by
  unfold takeCols
  show Scalar.select (broadcastInDim S4096x4096 ![1] bcast_S4096_S4096x4096_1 (inRange perm) (ix2 k j))
    (Host.gather gather_S4096x4096_S4096x1_S4096x4096_0_1_n_n_1_1_40961 R (startIdx perm) (ix2 k j)) _ = _
  rw [broadcastInDim_apply _ bcast_S4096_S4096x4096_1 (inRange perm) (ix2 k j) (ix1 j) (fun a => match a with
    | ⟨0, _⟩ => by show j.val = if (4096 : Nat) = 1 then 0 else j.val; rw [if_neg (by decide)]),
    inRange_apply perm hperm j]
  show Host.gather gather_S4096x4096_S4096x1_S4096x4096_0_1_n_n_1_1_40961 R (startIdx perm) (ix2 k j) = _
  have hg := gather_cols_apply (M := 4096) (N := 4096) (C := 4096) (by decide)
    gather_S4096x4096_S4096x1_S4096x4096_0_1_n_n_1_1_40961.wf R (startIdx perm) k j
  refine hg.trans ?_
  unfold srcCol
  rw [startIdx_apply]

/-! ## What the launch stages -/

variable (m : (ℓ : Loc nD τ sig) → Buf (Elt Ideal) ℓ)

set_option maxHeartbeats 1000000 in
/-- The array window 1 stages when the region is entered: the take, narrowed. -/
theorem V_main_v1 (c : Dev nD) :
    (V m c main_v1 : S4096x4096.Idx → EReal)
      = truncf .bf16 (takeCols (F := Ideal) (m ((c : Thread nD τ).loc main_arg1)) (m ((c : Thread nD τ).loc main_arg2)))
          bitsLt_bf16_f32 := by
  dsimp only [Gen.V]
  simp only [Gen.hostOps0, Gen.hostOps0_1, List.flatten_cons, List.flatten_nil, List.append_nil, List.cons_append,
    List.nil_append]
  after_results_simp
  rfl

/-- ENTRY (k, j) of that array, indices in range. -/
theorem V_main_v1_apply (c : Dev nD)
    (hperm : ∀ j : Fin 4096, IntOp.cmpi .sge (m ((c : Thread nD τ).loc main_arg2) (ix1 j)) 4294963200#32 = 1#1
      ∧ IntOp.cmpi .slt (m ((c : Thread nD τ).loc main_arg2) (ix1 j)) 4096#32 = 1#1)
    (k j : Fin 4096) :
    (V m c main_v1 : S4096x4096.Idx → EReal) (ix2 k j)
      = m ((c : Thread nD τ).loc main_arg1) (ix2 k (srcCol (m ((c : Thread nD τ).loc main_arg2)) j)) := by
  rw [V_main_v1]
  exact takeCols_apply _ _ hperm k j

end Cert.KernelIdeal.Permuted

end
-- ==== Proof.KernelValue.lean ====
/-
  The kernel's result array is the specified function.

  Grid point t handles rows 64·t … 64·t + 63: its weight block is those rows of W, its right-hand block is the whole
  taken matrix (entry (k, j) = R(k, c(j)) under the precondition), and what it writes back is, row by row, the
  quantization of the product row — so it writes rows 64·t … 64·t + 63 of the specified function. The 128 points' row
  bands tile the 8192 rows, so the array ends equal to the specified function everywhere.
-/
import proofs.«404038_j76364518523192_1_alg».proof.Proof.Gen.KernelIdeal.Value
import proofs.«404038_j76364518523192_1_alg».proof.Proof.KernelRow
import proofs.«404038_j76364518523192_1_alg».proof.Proof.PermutedMatrix

noncomputable section

namespace Cert.KernelIdeal.ArrValue

open Cert.KernelIdeal Cert.KernelIdeal.Gen Cert.KernelIdeal.RowValue Cert.KernelIdeal.Permuted
open Idealize.ShloMosaic Idealize.ShloMosaic.TcCoe Idealize.SL.Sem Idealize.ShloMosaic.ValueIdx
open Cert.Spec Cert.RowQuant
open Idealize.ShloMosaic.Pipeline (Dat)

variable (m : (ℓ : Loc nD τ sig) → Buf (Elt Ideal) ℓ) (ρ : Dev nD → PrngReg)

/-- Every index word of core c's index array lies in [-4096, 4096). -/
def PermOk (c : Dev nD) : Prop :=
  ∀ j : Fin 4096, IntOp.cmpi .sge (m ((c : Thread nD τ).loc main_arg2) (ix1 j)) 4294963200#32 = 1#1
    ∧ IntOp.cmpi .slt (m ((c : Thread nD τ).loc main_arg2) (ix1 j)) 4096#32 = 1#1

theorem zero_off : (![0, 0] : Fin 2 → Nat) = fun _ => 0 := Cert.KernelIdeal.RegVal.Matmul.zero_offsets

/-- The printed index maps over the grid: the weight window moves with the output window down the rows, neither moves
    along the columns, the right-hand window does not move, and there are at most 128 row bands. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 127 :=
  (by decide +kernel : ∀ t : Fin grid0.N, _)

/-- Every row band is some point's. -/
theorem idx_onto : ∀ q : Fin 128, ∃ t : Fin cfg0.N, win0_2.index t = ![q.val, 0] :=
  (by decide +kernel : ∀ q : Fin 128, ∃ t : Fin grid0.N, win0_2.index t = ![q.val, 0])

/-- The array row that local row r of point t's band is. -/
def bandRow (t : Fin cfg0.N) (r : Fin 64) : Fin 8192 :=
  ⟨win0_2.index t (0 : Fin 2) * 64 + r.val, by have := (idx_facts t).2.2.2.2.2; have := r.isLt; omega⟩

/-- Point t's weight block, at its literal type. -/
abbrev wblk (c : Dev nD) (t : Fin cfg0.N) : Vec Ideal S64x4096 .f32 := iblk m c 0 t

/-- Point t's right-hand block, at its literal type. -/
abbrev rblk (c : Dev nD) (t : Fin cfg0.N) : Vec Ideal S4096x4096 .bf16 := iblk m c 1 t

/-- The weight block of point t at (r, k) is W at the band's row and column k. -/
theorem wblock_apply (c : Dev nD) (t : Fin cfg0.N) (r : Fin 64) (k : Fin 4096) :
    wblk m c t (ix2 r k) = m ((c : Thread nD τ).loc main_arg0) (ix2 (bandRow t r) k) := by
  obtain ⟨e0, e1, -, -, -, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 64 + 1 * r.val = win0_2.index t (0 : Fin 2) * 64 + r.val; omega
  | ⟨1, _⟩ => show win0_0.index t (1 : Fin 2) * 4096 + 1 * k.val = k.val; omega

/-- The right-hand block of every point at (k, j) is R at row k and the column the replaced index names. -/
theorem rblock_apply (c : Dev nD) (hp : PermOk m c) (t : Fin cfg0.N) (k j : Fin 4096) :
    rblk m c t (ix2 k j)
      = m ((c : Thread nD τ).loc main_arg1) (ix2 k (srcCol (m ((c : Thread nD τ).loc main_arg2)) j)) := by
  obtain ⟨-, -, e2, e3, -, -⟩ := idx_facts t
  show (V m c main_v1 : S4096x4096.Idx → EReal) (((cfg0.win 1).blk t).view.emb (ix2 k j)) = _
  have he : ((cfg0.win 1).blk t).view.emb (ix2 k j) = ix2 k j := funext fun a => Fin.ext (by
    match a with
    | ⟨0, _⟩ => show win0_1.index t (0 : Fin 2) * 4096 + 1 * k.val = k.val; omega
    | ⟨1, _⟩ => show win0_1.index t (1 : Fin 2) * 4096 + 1 * j.val = j.val; omega)
  rw [he]
  exact V_main_v1_apply m c hp k j

set_option maxHeartbeats 1000000 in
/-- WHAT POINT t WRITES BACK is its band of the specified function. -/
theorem flushed_eq (c : Dev nD) (hp : PermOk m c) (t : Fin cfg0.N) :
    (dats m 0 c).flushed 2 t = ((cfg0.win 2).blk t).view.read (Elt Ideal)
      (G (m ((c : Thread nD τ).loc main_arg0)) (m ((c : Thread nD τ).loc main_arg1)) (m ((c : Thread nD τ).loc main_arg2))) := by
  rw [Cert.KernelIdeal.Value.flushed2]
  unfold out0_2
  rw [View.canon_unit_zero zero_off]
  simp only [View.ld_unit_zero (S := S64x4096) zero_off, View.ld_unit_zero (S := S4096x4096) zero_off]
  obtain ⟨-, -, -, -, e4, -⟩ := idx_facts t
  funext y
  obtain ⟨r, j, rfl⟩ : ∃ (r : Fin 64) (j : Fin 4096), y = ix2 r j := ⟨y 0, y 1, eq_ix2 y⟩
  show k0_pay1 (F := Ideal) (wblk m c t) (rblk m c t) (ix2 r j)
    = G (m ((c : Thread nD τ).loc main_arg0)) (m ((c : Thread nD τ).loc main_arg1)) (m ((c : Thread nD τ).loc main_arg2))
        (((cfg0.win 2).blk t).view.emb (ix2 r j))
  have he : ((cfg0.win 2).blk t).view.emb (ix2 r j) = ix2 (bandRow t r) j := funext fun a => Fin.ext (by
    match a with
    | ⟨0, _⟩ => show win0_2.index t (0 : Fin 2) * 64 + 1 * r.val = win0_2.index t (0 : Fin 2) * 64 + r.val; omega
    | ⟨1, _⟩ => show win0_2.index t (1 : Fin 2) * 4096 + 1 * j.val = j.val; omega)
  rw [he, G_apply]
  refine (pay_apply (wblk m c t) (rblk m c t) r j).trans ?_
  refine congrArg (fun a => quant a j) (funext fun j' => ?_)
  unfold prodRow takenRow
  exact Finset.sum_congr rfl fun k _ => by rw [wblock_apply m c t r k, rblock_apply m c hp t k j']

/-- An index of the array is in point t's block iff each coordinate is in the block's range on its axis. -/
theorem mem_blk (t : Fin cfg0.N) (i : S8192x4096.Idx) :
    i ∈ ((cfg0.win 2).blk t).view.set ↔ ∀ a : Fin 2, win0_2.index t a * S64x4096.size a ≤ (i a).val
      ∧ (i a).val < win0_2.index t a * S64x4096.size a + S64x4096.size a := by
  show i ∈ ((View.whole main_v2).slice (win0_2.rect t)).set ↔ _
  rw [View.set_slice_whole, Rect.mem_set_unit]
  exact Iff.rfl

/-- Every index of the array is in the block of the point whose band holds its row. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := idx_onto ⟨(i 0).val / 64, by omega⟩
  have q0 : win0_2.index t (0 : Fin 2) = (i 0).val / 64 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 4096 ≤ (i 1).val ∧ (i 1).val < win0_2.index t (1 : Fin 2) * 4096 + 4096
    omega

/-- THE ARRAY after the run: the specified function of the argument arrays. -/
theorem final (c : Dev nD) (hp : PermOk m c) :
    (dats m 0 c).arrAt 2 cfg0.N
      = G (m ((c : Thread nD τ).loc main_arg0)) (m ((c : Thread nD τ).loc main_arg1)) (m ((c : Thread nD τ).loc main_arg2)) :=
  (dats m 0 c).arrAt_eq_of_cover 2 _ (fun t _ => flushed_eq m c hp t) cover

/-- The frame run re-posted: the result array at the specified function of the arguments, the arguments unchanged. -/
theorem run (hp : ∀ c : Dev nD, PermOk m c) :
    θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hp c)), (h c).2⟩)
    (Cert.KernelIdeal.Value.run_blocks m ρ)

end Cert.KernelIdeal.ArrValue

end
-- ==== Proof.RefValue.lean ====
/-
  The reference computes the specified function.

  Its operations, read one at a time at entry (i, j): the product W · R; the take of the product's columns at the
  replaced indices, entry (i, j) being (W · R)(i, c(j)) = Σ_k W(i, k) · R(k, c(j)); the row minimum and maximum of
  the taken product as folds over the row; and the pointwise chain — step, zero point (the negation of the minimum,
  divided by the step), divide, add, round, clip, subtract, multiply — which is the quantization of the entry
  between that minimum and maximum.
-/
import proofs.«404038_j76364518523192_1_alg».proof.Proof.Gen.ReferenceIdeal.Read
import proofs.«404038_j76364518523192_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec Cert.RowQuant Cert.ColumnGather Cert.WrappedIndex

variable (W : FVec Ideal S8192x4096 .f32) (R : FVec Ideal S4096x4096 .f32) (perm : IVec S4096 32)

/-- The start index of result column j: the replaced index word. -/
theorem start_apply (j : Fin 4096) (z : Fin 1) :
    val_main_v6 (F := Ideal) perm (ix2 j z) = wrapWord (perm (ix1 j)) := by
  rw [val_main_v6_apply]
  have e : idx_main_v6 (ix2 j z) = ix1 j := funext fun a => Fin.ext (by match a with | ⟨0, _⟩ => rfl)
  rw [e]
  rfl

/-- The taken product at (i, j). -/
theorem taken_apply (i : Fin 8192) (j : Fin 4096) :
    val_main_v7 (F := Ideal) W R perm (ix2 i j) = takenRow W R perm i j := by
  unfold val_main_v7
  refine (gather_cols_apply (M := 8192) (N := 4096) (C := 4096) (by decide)
    gather_S8192x4096_S4096x1_S8192x4096_0_1_n_n_1_1_81921.wf (val_main_v0 (F := Ideal) W R)
    (val_main_v6 (F := Ideal) perm) i j).trans ?_
  rw [start_apply, val_main_v0_apply]
  refine Finset.sum_congr rfl fun k _ => ?_
  have el : lidx_main_v0 (ix2 i (colOf 4096 (by decide) (wrapWord (perm (ix1 j))))) k = ix2 i k :=
    funext fun a => Fin.ext (by match a with | ⟨0, _⟩ => rfl | ⟨1, _⟩ => rfl)
  have er : ridx_main_v0 (ix2 i (colOf 4096 (by decide) (wrapWord (perm (ix1 j))))) k
      = ix2 k (colOf 4096 (by decide) (wrapWord (perm (ix1 j)))) :=
    funext fun a => Fin.ext (by match a with | ⟨0, _⟩ => rfl | ⟨1, _⟩ => rfl)
  rw [el, er]
  rfl

/-- The reference's row minimum of the taken product. -/
theorem rowMin_apply (i : Fin 8192) :
    val_main_v8 (F := Ideal) W R perm (ix1 i) = rowMin (takenRow W R perm i) := by
  unfold val_main_v8 val_main_cst
  exact (host_rowMin (val_main_v7 (F := Ideal) W R perm) reducesTo_S8192x4096_S8192_d1
    (by decide : S8192x4096.Reduces [1] S8192) h_S_ i).trans (congrArg rowMin (funext (taken_apply W R perm i)))

/-- The reference's row maximum of the taken product. -/
theorem rowMax_apply (i : Fin 8192) :
    val_main_v10 (F := Ideal) W R perm (ix1 i) = rowMax (takenRow W R perm i) := by
  unfold val_main_v10 val_main_cst_1
  exact (host_rowMax (val_main_v7 (F := Ideal) W R perm) reducesTo_S8192x4096_S8192_d1
    (by decide : S8192x4096.Reduces [1] S8192) h_S_ i).trans (congrArg rowMax (funext (taken_apply W R perm i)))

/-! ## The pointwise chain, stage by stage -/

/-- The step from a row's least and greatest entries. -/
def stepOf (lo hi : EReal) : EReal :=
  max (Ideal.div (hi - lo) (Ideal.ofBits .f32 0x437F0000#32)) (Ideal.ofBits .f32 0x322BCC77#32)

/-- The zero point from a row's least and greatest entries. -/
def zeroOf (lo hi : EReal) : EReal := Ideal.div (-lo) (stepOf lo hi)

/-- The quantization in terms of the step and the zero point. -/
theorem quantOf_eq (x lo hi : EReal) :
    quantOf x lo hi
      = (min (Ideal.ofBits .f32 0x437F0000#32)
          (max (Ideal.ofBits .f32 0x00000000#32)
            (Ideal.liftRound Ideal.roundHalfEven (Ideal.div x (stepOf lo hi) + zeroOf lo hi)))
        - zeroOf lo hi) * stepOf lo hi := rfl

/-- The minimum, kept as a column, at row i. -/
theorem lo_apply (i : Fin 8192) (z : Fin 1) :
    val_main_v9 (F := Ideal) W R perm (ix2 i z) = val_main_v8 (F := Ideal) W R perm (ix1 i) := by
  rw [val_main_v9_apply]
  have e : idx_main_v9 (ix2 i z) = ix1 i := funext fun a => Fin.ext (by match a with | ⟨0, _⟩ => rfl)
  rw [e]

/-- The maximum, kept as a column, at row i. -/
theorem hi_apply (i : Fin 8192) (z : Fin 1) :
    val_main_v11 (F := Ideal) W R perm (ix2 i z) = val_main_v10 (F := Ideal) W R perm (ix1 i) := by
  rw [val_main_v11_apply]
  have e : idx_main_v11 (ix2 i z) = ix1 i := funext fun a => Fin.ext (by match a with | ⟨0, _⟩ => rfl)
  rw [e]

/-- The step column at row i. -/
theorem step_apply (i : Fin 8192) (z : Fin 1) :
    val_main_v16 (F := Ideal) W R perm (ix2 i z)
      = stepOf (val_main_v8 (F := Ideal) W R perm (ix1 i)) (val_main_v10 (F := Ideal) W R perm (ix1 i)) := by
  rw [val_main_v16_apply, val_main_v14_apply, val_main_v12_apply, lo_apply, hi_apply, val_main_v13_apply,
    val_main_v15_apply, val_main_cst_2_apply, val_main_cst_3_apply]
  generalize val_main_v8 (F := Ideal) W R perm (ix1 i) = lo
  generalize val_main_v10 (F := Ideal) W R perm (ix1 i) = hi
  rfl

/-- The zero-point column at row i. -/
theorem zero_apply (i : Fin 8192) (z : Fin 1) :
    val_main_v18 (F := Ideal) W R perm (ix2 i z)
      = zeroOf (val_main_v8 (F := Ideal) W R perm (ix1 i)) (val_main_v10 (F := Ideal) W R perm (ix1 i)) := by
  rw [val_main_v18_apply, val_main_v17_apply, lo_apply, step_apply]
  generalize val_main_v8 (F := Ideal) W R perm (ix1 i) = lo
  generalize val_main_v10 (F := Ideal) W R perm (ix1 i) = hi
  rfl

/-- The step spread over the columns, at (i, j): a column spread over 4096 columns is read at its row. -/
theorem step_spread (i : Fin 8192) (j : Fin 4096) :
    val_main_v19 (F := Ideal) W R perm (ix2 i j)
      = stepOf (val_main_v8 (F := Ideal) W R perm (ix1 i)) (val_main_v10 (F := Ideal) W R perm (ix1 i)) := by
  rw [val_main_v19_apply]
  have e : idx_main_v19 (ix2 i j) = ix2 i ⟨0, Nat.one_pos⟩ :=
    funext fun a => Fin.ext (by match a with | ⟨0, _⟩ => rfl | ⟨1, _⟩ => rfl)
  rw [e, step_apply]

/-- The same array, spread a second time for the final product. -/
theorem step_spread' (i : Fin 8192) (j : Fin 4096) :
    val_main_v27 (F := Ideal) W R perm (ix2 i j)
      = stepOf (val_main_v8 (F := Ideal) W R perm (ix1 i)) (val_main_v10 (F := Ideal) W R perm (ix1 i)) := by
  rw [val_main_v27_apply]
  have e : idx_main_v27 (ix2 i j) = ix2 i ⟨0, Nat.one_pos⟩ :=
    funext fun a => Fin.ext (by match a with | ⟨0, _⟩ => rfl | ⟨1, _⟩ => rfl)
  rw [e, step_apply]

/-- The zero point spread over the columns, at (i, j). -/
theorem zero_spread (i : Fin 8192) (j : Fin 4096) :
    val_main_v21 (F := Ideal) W R perm (ix2 i j)
      = zeroOf (val_main_v8 (F := Ideal) W R perm (ix1 i)) (val_main_v10 (F := Ideal) W R perm (ix1 i)) := by
  rw [val_main_v21_apply]
  have e : idx_main_v21 (ix2 i j) = ix2 i ⟨0, Nat.one_pos⟩ :=
    funext fun a => Fin.ext (by match a with | ⟨0, _⟩ => rfl | ⟨1, _⟩ => rfl)
  rw [e, zero_apply]

/-- The same array, spread a second time for the final difference. -/
theorem zero_spread' (i : Fin 8192) (j : Fin 4096) :
    val_main_v25 (F := Ideal) W R perm (ix2 i j)
      = zeroOf (val_main_v8 (F := Ideal) W R perm (ix1 i)) (val_main_v10 (F := Ideal) W R perm (ix1 i)) := by
  rw [val_main_v25_apply]
  have e : idx_main_v25 (ix2 i j) = ix2 i ⟨0, Nat.one_pos⟩ :=
    funext fun a => Fin.ext (by match a with | ⟨0, _⟩ => rfl | ⟨1, _⟩ => rfl)
  rw [e, zero_apply]

/-- The pointwise chain at (i, j): the quantization of the taken entry between the row's two reductions. -/
theorem chain_apply (i : Fin 8192) (j : Fin 4096) :
    val_main_v28 (F := Ideal) W R perm (ix2 i j)
      = quantOf (val_main_v7 (F := Ideal) W R perm (ix2 i j)) (val_main_v8 (F := Ideal) W R perm (ix1 i))
          (val_main_v10 (F := Ideal) W R perm (ix1 i)) := by
  rw [quantOf_eq, val_main_v28_apply, val_main_v26_apply, step_spread', zero_spread', val_main_v24_apply,
    val_main_call1_v3_apply, val_main_cst_5_apply, val_main_call1_v2_apply, val_main_call1_v1_apply,
    val_main_call1_v0_apply, val_main_cst_4_apply, val_main_v23_apply, val_main_v22_apply, val_main_v20_apply,
    step_spread, zero_spread]
  generalize val_main_v7 (F := Ideal) W R perm (ix2 i j) = x
  generalize val_main_v8 (F := Ideal) W R perm (ix1 i) = lo
  generalize val_main_v10 (F := Ideal) W R perm (ix1 i) = hi
  rfl

/-- THE REFERENCE'S RESULT is the specified function of its arguments. -/
theorem result_eq : val_main_v28 (F := Ideal) W R perm = G W R perm := by
  funext idx
  obtain ⟨i, j, rfl⟩ : ∃ (i : Fin 8192) (j : Fin 4096), idx = ix2 i j := ⟨idx 0, idx 1, eq_ix2 idx⟩
  rw [chain_apply, taken_apply, rowMin_apply, rowMax_apply]
  rfl

end Cert.ReferenceIdeal.RefValue

end
-- ==== Proof.lean ====
/-
  The kernel multiplies a weight matrix W by a rotation R whose columns it has first taken at an index array, and
  fake-quantizes every row of the product; the reference multiplies first, takes the product's columns at the same
  index array, and fake-quantizes. On the extended reals both are one function of (W, R, perm) (Proof/Spec.lean):
  taking columns commutes with the product entry by entry — (W · R)(i, c(j)) and Σ_k W(i, k) · R(k, c(j)) are the same
  sum — and the row-wise quantization is the same chain of operations on the same row (Proof/RowQuant.lean). The two
  takes treat an index outside [-4096, 4096) differently (one clamps, one fills with a not-a-number), so the claim is
  stated for index words in that range, where both read column perm(j), or perm(j) + 4096 for a negative perm(j).

  The frames are the generated ones; the kernel's result array is read off its generated frame run block by block
  (Proof/KernelValue.lean), the reference's off its generated run operation by operation (Proof/RefValue.lean).
-/
import proofs.«404038_j76364518523192_1_alg».proof.Defs
import proofs.«404038_j76364518523192_1_alg».proof.Proof.Gen.Kernel
import proofs.«404038_j76364518523192_1_alg».proof.Proof.Gen.Kernel.Skeleton
import proofs.«404038_j76364518523192_1_alg».proof.Proof.Gen.Kernel.Launch
import proofs.«404038_j76364518523192_1_alg».proof.Proof.Gen.Kernel.Points
import proofs.«404038_j76364518523192_1_alg».proof.Proof.Gen.Kernel.Frame
import proofs.«404038_j76364518523192_1_alg».proof.Proof.Gen.KernelIdeal
import proofs.«404038_j76364518523192_1_alg».proof.Proof.Gen.KernelIdeal.Skeleton
import proofs.«404038_j76364518523192_1_alg».proof.Proof.Gen.KernelIdeal.Launch
import proofs.«404038_j76364518523192_1_alg».proof.Proof.Gen.KernelIdeal.Points
import proofs.«404038_j76364518523192_1_alg».proof.Proof.Gen.KernelIdeal.Frame
import proofs.«404038_j76364518523192_1_alg».proof.Proof.Gen.ReferenceIdeal
import proofs.«404038_j76364518523192_1_alg».proof.Proof.Gen.Pre_finite_inputs
import proofs.«404038_j76364518523192_1_alg».proof.Proof.Gen.KernelIdeal.Value
import proofs.«404038_j76364518523192_1_alg».proof.Proof.Gen.ReferenceIdeal.Run
import proofs.«404038_j76364518523192_1_alg».proof.Proof.Gen.ReferenceIdeal.Read
import proofs.«404038_j76364518523192_1_alg».proof.Proof.PermRange
import proofs.«404038_j76364518523192_1_alg».proof.Proof.KernelValue
import proofs.«404038_j76364518523192_1_alg».proof.Proof.RefValue
import Idealize.ShloMosaic.Adequacy
import Idealize.ShloMosaic.Init

noncomputable section

namespace Cert.Proof

open Idealize.ShloMosaic Idealize.SL.Sem

/-- The word-level kernel runs and leaves its arguments unchanged: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specified function of their (agreeing) arguments in the result array: the kernel by its
    blocks (the index words in range by the precondition), the reference by its operations. -/
theorem algebraic : Cert.algebraic_KernelIdeal_ReferenceIdeal := by
  intro m ρ m' ρ' hpre hagree
  have hp : ∀ c, Cert.KernelIdeal.ArrValue.PermOk m c := fun c j => Cert.PermRange.perm_range _ _ _ (hpre c) j
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrValue.run m ρ hp, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
